-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S2000x128 : Shape := ⟨2, ![2000, 128]⟩
abbrev S200x10000 : Shape := ⟨2, ![200, 10000]⟩
abbrev S200x128 : Shape := ⟨2, ![200, 128]⟩

abbrev nBuf : Space → Nat
  | .hbm => 7
  | .vmem => 16
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S200x10000, .f32⟩
  | .local _ .vmem, ⟨7, _⟩ => ⟨S200x10000, .f32⟩
  | .local _ .vmem, ⟨8, _⟩ => ⟨S10000x128, .f32⟩
  | .local _ .vmem, ⟨9, _⟩ => ⟨S200x128, .f32⟩
  | .local _ .vmem, ⟨10, _⟩ => ⟨S200x128, .f32⟩
  | .local _ .vmem, ⟨11, _⟩ => ⟨S200x10000, .f32⟩
  | .local _ .vmem, ⟨12, _⟩ => ⟨S200x10000, .f32⟩
  | .local _ .vmem, ⟨13, _⟩ => ⟨S10000x128, .f32⟩
  | .local _ .vmem, ⟨14, _⟩ => ⟨S200x128, .f32⟩
  | .local _ .vmem, ⟨15, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  dot_S128x128_S128x128_S128x128_1_0_0_1_n_n_wf : DotDims.WF S128x128 S128x128 S128x128 [1] [0] [0] [1] [] []
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 8
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.MatLaw.lean ====
import Idealize.ShloMosaic.PureOps.Ideal
import Idealize.ShloMosaic.Lib.ValueIdx

/-!
# Products of rank-2 arrays on the extended reals, and their associativity on finite entries

`prod2 a b` is the textbook product of an `[M, K]` array and a `[K, N]` array, entry `(p, q)` the sum over `k` of
`a[p, k] · b[k, q]`, computed on the extended reals. On the extended reals a product does not distribute over a sum
when infinities of both signs meet, so the product is associative only where every entry is a real number: then
each sum is a real sum, and `(a · b) · c = a · (b · c)` is the exchange of two finite sums.
-/

noncomputable section

namespace Cert.Gae

open Idealize.ShloMosaic Idealize.ShloMosaic.ValueIdx

/-- The product of an `[M, K]` and a `[K, N]` array: entry `(p, q)` is `∑ k, a[p, k] · b[k, q]`. -/
def prod2 {M K N : Nat} (a : FVec Ideal (⟨2, ![M, K]⟩ : Shape) .f32) (b : FVec Ideal (⟨2, ![K, N]⟩ : Shape) .f32) :
    FVec Ideal (⟨2, ![M, N]⟩ : Shape) .f32 :=
  fun j => ∑ k : Fin K, a (ix2 (⟨(j 0).val, idx2_lt0 j⟩ : Fin M) k) * b (ix2 k (⟨(j 1).val, idx2_lt1 j⟩ : Fin N))

theorem prod2_apply {M K N : Nat} (a : FVec Ideal (⟨2, ![M, K]⟩ : Shape) .f32) (b : FVec Ideal (⟨2, ![K, N]⟩ : Shape) .f32)
    (p : Fin M) (q : Fin N) : prod2 a b (ix2 p q) = ∑ k : Fin K, a (ix2 p k) * b (ix2 k q) := rfl

/-- Every entry of the array is a real number. -/
def AllReal {s : Shape} (a : FVec Ideal s .f32) : Prop := ∀ i, ∃ r : ℝ, a i = (r : EReal)

/-- The inclusion of the reals commutes with finite sums. -/
theorem coe_finsum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of arrays of reals is an array of reals. -/
theorem allReal_prod2 {M K N : Nat} {a : FVec Ideal (⟨2, ![M, K]⟩ : Shape) .f32} {b : FVec Ideal (⟨2, ![K, N]⟩ : Shape) .f32}
    (ha : AllReal a) (hb : AllReal b) : AllReal (prod2 a b) := by
  choose a' ha' using ha
  choose b' hb' using hb
  intro j
  obtain ⟨p, q, rfl⟩ : ∃ (p : Fin M) (q : Fin N), j = ix2 p q := ⟨j 0, j 1, eq_ix2 j⟩
  refine ⟨∑ k : Fin K, a' (ix2 p k) * b' (ix2 k q), ?_⟩
  rw [prod2_apply, coe_finsum]
  exact Finset.sum_congr rfl fun k _ => by rw [ha', hb', EReal.coe_mul]

/-- On arrays of reals the product is associative: both sides are the double sum of `a[p, k] · b[k, l] · c[l, q]`. -/
theorem prod2_assoc {M K L N : Nat} (a : FVec Ideal (⟨2, ![M, K]⟩ : Shape) .f32) (b : FVec Ideal (⟨2, ![K, L]⟩ : Shape) .f32)
    (c : FVec Ideal (⟨2, ![L, N]⟩ : Shape) .f32) (ha : AllReal a) (hb : AllReal b) (hc : AllReal c) :
    prod2 (prod2 a b) c = prod2 a (prod2 b c) := by
  choose a' ha' using ha
  choose b' hb' using hb
  choose c' hc' using hc
  funext j
  obtain ⟨p, q, rfl⟩ : ∃ (p : Fin M) (q : Fin N), j = ix2 p q := ⟨j 0, j 1, eq_ix2 j⟩
  simp only [prod2_apply, ha', hb', hc']
  simp only [← EReal.coe_mul, ← coe_finsum]
  refine congrArg _ ?_
  simp only [Finset.sum_mul, Finset.mul_sum, mul_assoc]
  exact Finset.sum_comm

/-- The two arrangements of the two-layer graph convolution agree on arrays of reals:
    `A · (A · (X · (W₁ · W₂))) = A · ((A · (X · W₁)) · W₂)`, by associativity twice under the outer `A ·`. -/
theorem two_layer {n d e f : Nat} (A : FVec Ideal (⟨2, ![n, n]⟩ : Shape) .f32) (X : FVec Ideal (⟨2, ![n, d]⟩ : Shape) .f32)
    (W₁ : FVec Ideal (⟨2, ![d, e]⟩ : Shape) .f32) (W₂ : FVec Ideal (⟨2, ![e, f]⟩ : Shape) .f32)
    (hA : AllReal A) (hX : AllReal X) (h₁ : AllReal W₁) (h₂ : AllReal W₂) :
    prod2 A (prod2 A (prod2 X (prod2 W₁ W₂))) = prod2 A (prod2 (prod2 A (prod2 X W₁)) W₂) := by
  rw [prod2_assoc A (prod2 X W₁) W₂ hA (allReal_prod2 hX h₁) h₂, prod2_assoc X W₁ W₂ hX h₁ h₂]

end Cert.Gae

end
-- ==== Proof.ProdOps.lean ====
import proofs.«104270_g30897994727511_cont_9to1_1020_2_alg».proof.Proof.LibContract
import proofs.«104270_g30897994727511_cont_9to1_1020_2_alg».proof.Proof.MatLaw

/-!
# The machine's two contractions are the product of arrays

Over the plain contraction (the left operand's columns against the right operand's rows, no batch axis) a kernel's
matrix unit started from the zero splat and the host's dot product both compute, at the ideal values, the array
`prod2 a b`: entry `(p, q)` is `∑ k, a[p, k] · b[k, q]`. Also here: a product read at an entry only depends on one row of
the left operand and one column of the right one.
-/

noncomputable section

namespace Cert.Gae

open Idealize.ShloMosaic Idealize.ShloMosaic.ValueIdx

/-- A kernel's `tpu.matmul` into the zero splat, over a record that is the plain contraction, is the product. -/
theorem matmul_zero_eq_prod2 {M K N : Nat} (d : DotDims (⟨2, ![M, K]⟩ : Shape) (⟨2, ![K, N]⟩ : Shape) (⟨2, ![M, N]⟩ : Shape))
    (hd : d = DotDims.plain M K N) (a : FVec Ideal (⟨2, ![M, K]⟩ : Shape) .f32) (b : FVec Ideal (⟨2, ![K, N]⟩ : Shape) .f32) :
    matmul d none a b (constant (F := Ideal) (⟨2, ![M, N]⟩ : Shape) .f32 0x00000000#32) = prod2 a b := by
  subst hd
  funext j
  obtain ⟨p, q, rfl⟩ : ∃ (p : Fin M) (q : Fin N), j = ix2 p q := ⟨j 0, j 1, eq_ix2 j⟩
  rw [Cert.LibDense.matmul_plain_zero_apply, prod2_apply]

/-- The host's `dot_general` over a record that is the plain contraction is the product. -/
theorem dotGeneral_eq_prod2 {M K N : Nat} (d : DotDims (⟨2, ![M, K]⟩ : Shape) (⟨2, ![K, N]⟩ : Shape) (⟨2, ![M, N]⟩ : Shape))
    (hd : d = DotDims.plain M K N) (a : FVec Ideal (⟨2, ![M, K]⟩ : Shape) .f32) (b : FVec Ideal (⟨2, ![K, N]⟩ : Shape) .f32) :
    Host.dotGeneral d none a b = prod2 a b := by
  subst hd
  funext j
  obtain ⟨p, q, rfl⟩ : ∃ (p : Fin M) (q : Fin N), j = ix2 p q := ⟨j 0, j 1, eq_ix2 j⟩
  rw [Cert.LibDense.dotGeneral_plain_apply, prod2_apply]

/-- Entry `(p, q)` of a product reads row `p` of the left operand and column `q` of the right one: two products whose
    operands agree on that row and that column agree at the entry, whatever the operands' other extents. -/
theorem prod2_congr_at {M M' K N N' : Nat} (a : FVec Ideal (⟨2, ![M, K]⟩ : Shape) .f32) (b : FVec Ideal (⟨2, ![K, N]⟩ : Shape) .f32)
    (a' : FVec Ideal (⟨2, ![M', K]⟩ : Shape) .f32) (b' : FVec Ideal (⟨2, ![K, N']⟩ : Shape) .f32)
    (p : Fin M) (q : Fin N) (p' : Fin M') (q' : Fin N')
    (ha : ∀ k : Fin K, a (ix2 p k) = a' (ix2 p' k)) (hb : ∀ k : Fin K, b (ix2 k q) = b' (ix2 k q')) :
    prod2 a b (ix2 p q) = prod2 a' b' (ix2 p' q') := by
  rw [prod2_apply, prod2_apply]
  exact Finset.sum_congr rfl fun k _ => by rw [ha k, hb k]

end Cert.Gae

end
-- ==== Proof.KernelBody.lean ====
import proofs.«104270_g30897994727511_cont_9to1_1020_2_alg».proof.Proof.Gen.KernelIdeal.Frame
import proofs.«104270_g30897994727511_cont_9to1_1020_2_alg».proof.Proof.ProdOps
import Idealize.ShloMosaic.Lib.Pipeline.Value

/-!
# What each kernel body leaves in its output block, at the ideal values

The first kernel's body multiplies the two weight blocks and then its block of `x` by that product; the second and
third kernels' bodies multiply their block of rows of `adj` by the whole right operand. Each body stores its one
result over the whole output block, so the block after the body is that product of the input blocks.
-/

noncomputable section

namespace Cert.Gae

open Idealize.ShloMosaic Idealize.ShloMosaic.ValueIdx Cert.KernelIdeal Cert.KernelIdeal.Gen

theorem hz2 : (![0, 0] : Fin 2 → Nat) = fun _ => 0 := funext fun a => by fin_cases a <;> rfl

/-- The first body's stored value: `x_blk · (W_enc · W_mean)`. -/
theorem k0_pay1_eq (v0 v1 : Vec Ideal S128x128 .f32) (v3 : Vec Ideal S2000x128 .f32) :
    k0_pay1 (F := Ideal) v0 v1 v3 = prod2 v3 (prod2 v0 v1) := by
  show matmul dot_S2000x128_S128x128_S2000x128_1_0_0_1_n_n none v3
      (matmul dot_S128x128_S128x128_S128x128_1_0_0_1_n_n none v0 v1 (constant (F := Ideal) S128x128 .f32 0x00000000#32))
      (constant (F := Ideal) S2000x128 .f32 0x00000000#32) = _
  rw [matmul_zero_eq_prod2 dot_S128x128_S128x128_S128x128_1_0_0_1_n_n rfl v0 v1]
  exact matmul_zero_eq_prod2 dot_S2000x128_S128x128_S2000x128_1_0_0_1_n_n rfl v3 (prod2 v0 v1)

/-- The second body's stored value: `adj_blk · B` (the cast of `B` to its own shape is the identity). -/
theorem k1_pay1_eq (v0 : Vec Ideal S200x10000 .f32) (v1 : Vec Ideal S10000x128 .f32) :
    k1_pay1 (F := Ideal) v0 v1 = prod2 v0 v1 := by
  show matmul dot_S200x10000_S10000x128_S200x128_1_0_0_1_n_n none v0
      (shapeCast S10000x128 v1 shapeCasts_S10000x128_S10000x128) (constant (F := Ideal) S200x128 .f32 0x00000000#32) = _
  rw [shapeCast_self]
  exact matmul_zero_eq_prod2 dot_S200x10000_S10000x128_S200x128_1_0_0_1_n_n rfl v0 v1

/-- The third body's stored value: the same product. -/
theorem k2_pay1_eq (v0 : Vec Ideal S200x10000 .f32) (v1 : Vec Ideal S10000x128 .f32) :
    k2_pay1 (F := Ideal) v0 v1 = prod2 v0 v1 := by
  show matmul dot_S200x10000_S10000x128_S200x128_1_0_0_1_n_n none v0
      (shapeCast S10000x128 v1 shapeCasts_S10000x128_S10000x128) (constant (F := Ideal) S200x128 .f32 0x00000000#32) = _
  rw [shapeCast_self]
  exact matmul_zero_eq_prod2 dot_S200x10000_S10000x128_S200x128_1_0_0_1_n_n rfl v0 v1

/-- The first kernel's output block after the body, from its three input blocks. -/
theorem out0_3_eq (x0 : Vec Ideal S2000x128 .f32) (x1 x2 : Vec Ideal S128x128 .f32) :
    out0_3 (F := Ideal) x0 x1 x2 = prod2 x0 (prod2 x1 x2) := by
  unfold out0_3
  rw [View.canon_unit_zero hz2]
  simp only [View.ld_unit_zero (S := S128x128) hz2, View.ld_unit_zero (S := S2000x128) hz2]
  exact k0_pay1_eq x1 x2 x0

/-- The second kernel's output block after the body, from its two input blocks. -/
theorem out1_2_eq (x0 : Vec Ideal S200x10000 .f32) (x1 : Vec Ideal S10000x128 .f32) :
    out1_2 (F := Ideal) x0 x1 = prod2 x0 x1 := by
  unfold out1_2
  rw [View.canon_unit_zero hz2]
  simp only [View.ld_unit_zero (S := S200x10000) hz2, View.ld_unit_zero (S := S10000x128) hz2]
  exact k1_pay1_eq x0 x1

/-- The third kernel's output block after the body, from its two input blocks. -/
theorem out2_2_eq (x0 : Vec Ideal S200x10000 .f32) (x1 : Vec Ideal S10000x128 .f32) :
    out2_2 (F := Ideal) x0 x1 = prod2 x0 x1 := by
  unfold out2_2
  rw [View.canon_unit_zero hz2]
  simp only [View.ld_unit_zero (S := S200x10000) hz2, View.ld_unit_zero (S := S10000x128) hz2]
  exact k2_pay1_eq x0 x1

end Cert.Gae

end
-- ==== Proof.KernelRegion0.lean ====
import proofs.«104270_g30897994727511_cont_9to1_1020_2_alg».proof.Proof.KernelBody

/-!
# The first region's result array, from the contents the region is entered with

The first region's output blocks are five disjoint bands of 2000 rows that fill its result array, and the band a
grid point writes back is that band of ONE product of whole arrays: the `x` window moves with the point and holds the
band of rows of `x` with the same number, the two weight windows do not move and hold their whole arrays, and entry
`(p, q)` of a product reads only row `p` of its left operand. So after the region the result array is
`x · (W_enc · W_mean)` of the arrays the region found.
-/

set_option maxRecDepth 16384

noncomputable section

namespace Cert.Gae

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0: blocks of 2000 rows of `x` times the product of the two weight arrays -/

/-- The block indices over the grid: point `t` takes block row `t` of `x`, both weight arrays whole, and writes block
    row `t` of the result. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` window's block at point `t` is rows `2000 t … 2000 t + 1999` of the array. -/
theorem iblk0_0_apply (c : Dev nD) (t : Fin cfg0.N) (x : S2000x128.Idx) (k : S10000x128.Idx)
    (hk0 : (k 0).val = 2000 * t.val + (x 0).val) (hk1 : (k 1).val = (x 1).val) :
    (iblk0 V c 0 t : Vec Ideal S2000x128 .f32) x = (V c main_arg1 : S10000x128.Idx → Elt Ideal .f32) k := by
  obtain ⟨h0, h1, -, -, -, -, -, -⟩ := idx0 t
  unfold iblk0
  rw [View.read_apply]
  show V c main_arg1 _ = V c main_arg1 _
  refine congrArg _ ?_
  funext a
  apply Fin.ext
  match a with
  | ⟨0, _⟩ => show win0_0.index t (0 : Fin 2) * 2000 + 1 * (x 0).val = (k 0).val; rw [h0, hk0]; omega
  | ⟨1, _⟩ => show win0_0.index t (1 : Fin 2) * 128 + 1 * (x 1).val = (k 1).val; rw [h1, hk1]; omega

/-- The first weight window holds the whole array at every point. -/
theorem iblk0_1_eq (c : Dev nD) (t : Fin cfg0.N) :
    (iblk0 V c 1 t : Vec Ideal S128x128 .f32) = (V c main_arg2 : S128x128.Idx → Elt Ideal .f32) := by
  obtain ⟨-, -, h0, h1, -, -, -, -⟩ := idx0 t
  funext x
  unfold iblk0
  rw [View.read_apply]
  show V c main_arg2 _ = V c main_arg2 _
  refine congrArg _ ?_
  funext a
  apply Fin.ext
  match a with
  | ⟨0, _⟩ => show win0_1.index t (0 : Fin 2) * 128 + 1 * (x 0).val = (x 0).val; rw [h0]; omega
  | ⟨1, _⟩ => show win0_1.index t (1 : Fin 2) * 128 + 1 * (x 1).val = (x 1).val; rw [h1]; omega

/-- The second weight window holds the whole array at every point. -/
theorem iblk0_2_eq (c : Dev nD) (t : Fin cfg0.N) :
    (iblk0 V c 2 t : Vec Ideal S128x128 .f32) = (V c main_arg3 : S128x128.Idx → Elt Ideal .f32) := by
  obtain ⟨-, -, -, -, h0, h1, -, -⟩ := idx0 t
  funext x
  unfold iblk0
  rw [View.read_apply]
  show V c main_arg3 _ = V c main_arg3 _
  refine congrArg _ ?_
  funext a
  apply Fin.ext
  match a with
  | ⟨0, _⟩ => show win0_2.index t (0 : Fin 2) * 128 + 1 * (x 0).val = (x 0).val; rw [h0]; omega
  | ⟨1, _⟩ => show win0_2.index t (1 : Fin 2) * 128 + 1 * (x 1).val = (x 1).val; rw [h1]; omega

/-- What point `t` writes back is block row `t` of `x · (W_enc · W_mean)`. -/
theorem flushed0 (c : Dev nD) (t : Fin cfg0.N) :
    (dat0 V c).flushed 3 t
      = ((cfg0.win 3).blk t).view.read (Elt Ideal) (prod2 (V c main_arg1) (prod2 (V c main_arg2) (V c main_arg3))) := by
  show (cfg0.win 3).cut (grid0.coords t) ((dat0 V c).after 3 t) = _
  rw [after0_3, out0_3_eq (iblk0 V c 0 t) (iblk0 V c 1 t) (iblk0 V c 2 t), iblk0_1_eq V c t, iblk0_2_eq V c t]
  obtain ⟨-, -, -, -, -, -, h0, h1⟩ := idx0 t
  have htN : t.val < 5 := by have := t.isLt; have e : cfg0.N = 5 := N_0; omega
  funext j
  obtain ⟨p, q, rfl⟩ : ∃ (p : Fin 2000) (q : Fin 128), j = ix2 p q := ⟨j 0, j 1, eq_ix2 j⟩
  rw [View.read_apply]
  have he : ((cfg0.win 3).blk t).view.emb (ix2 p q)
      = ix2 (⟨2000 * t.val + p.val, by have := p.isLt; omega⟩ : Fin 10000) q := by
    funext a
    apply Fin.ext
    match a with
    | ⟨0, _⟩ => show win0_3.index t (0 : Fin 2) * 2000 + 1 * p.val = 2000 * t.val + p.val; rw [h0]; omega
    | ⟨1, _⟩ => show win0_3.index t (1 : Fin 2) * 128 + 1 * q.val = q.val; rw [h1]; omega
  rw [he]
  show prod2 (iblk0 V c 0 t : Vec Ideal S2000x128 .f32) (prod2 (V c main_arg2) (V c main_arg3)) (ix2 p q) = _
  refine prod2_congr_at _ _ _ _ p q _ q (fun k => ?_) (fun k => rfl)
  exact iblk0_0_apply V c t (ix2 p k) (ix2 _ k) rfl rfl

/-- An index of the result array is in point `t`'s block iff its row is among the block's 2000 rows. -/
theorem mem_blk0 (t : Fin cfg0.N) (i : S10000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v0).slice (win0_3.rect t)).set ↔ _
  rw [View.set_slice_whole, Rect.mem_set_unit]
  exact Iff.rfl

/-- The five blocks of 2000 rows cover the result array: row `r` is in the block of point `r / 2000`. -/
theorem cover0 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 2000 :=
    ⟨⟨(i 0).val / 2000, by rw [show cfg0.N = 5 from N_0]; omega⟩, rfl⟩
  obtain ⟨-, -, -, -, -, -, h0, h1⟩ := idx0 t
  refine ⟨t, flush0_3 t, (mem_blk0 t i).mpr fun a => ?_⟩
  match a with
  | ⟨0, _⟩ =>
    show win0_3.index t (0 : Fin 2) * 2000 ≤ (i 0).val ∧ (i 0).val < win0_3.index t (0 : Fin 2) * 2000 + 2000
    rw [h0, ht]; omega
  | ⟨1, _⟩ =>
    show win0_3.index t (1 : Fin 2) * 128 ≤ (i 1).val ∧ (i 1).val < win0_3.index t (1 : Fin 2) * 128 + 128
    rw [h1]; omega

/-- After the region its result array is `x · (W_enc · W_mean)`. -/
theorem final0 (c : Dev nD) :
    (dat0 V c).arrAt 3 cfg0.N = prod2 (V c main_arg1) (prod2 (V c main_arg2) (V c main_arg3)) :=
  (dat0 V c).arrAt_eq_of_cover 3 (prod2 (V c main_arg1) (prod2 (V c main_arg2) (V c main_arg3))) (fun t _ => flushed0 V c t) cover0

end Cert.Gae

end
-- ==== Proof.KernelRegion1.lean ====
import proofs.«104270_g30897994727511_cont_9to1_1020_2_alg».proof.Proof.KernelBody

/-!
# The second region's result array, from the contents the region is entered with

The region's output blocks are fifty disjoint bands of 200 rows that fill its result array, and the band a grid point
writes back is that band of ONE product of whole arrays: the `adj` window moves with the point and holds the band of
rows of `adj` with the same number, the right operand's window does not move and holds its whole array, and entry
`(p, q)` of a product reads only row `p` of its left operand. So after the region the result array is `adj · B`, `B`
the right operand as the region found it.
-/

set_option maxRecDepth 16384

noncomputable section

namespace Cert.Gae

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The region: blocks of 200 rows of `adj` times the whole right operand -/

/-- The block indices over the grid: point `t` takes block row `t` of `adj`, the whole right operand, and writes block
    row `t` of the result. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The `adj` window's block at point `t` is rows `200 t … 200 t + 199` of the array. -/
theorem iblk1_0_apply (c : Dev nD) (t : Fin cfg1.N) (x : S200x10000.Idx) (k : S10000x10000.Idx)
    (hk0 : (k 0).val = 200 * t.val + (x 0).val) (hk1 : (k 1).val = (x 1).val) :
    (iblk1 V c 0 t : Vec Ideal S200x10000 .f32) x = (V c main_arg0 : S10000x10000.Idx → Elt Ideal .f32) k := by
  obtain ⟨h0, h1, -, -, -, -⟩ := idx1 t
  unfold iblk1
  rw [View.read_apply]
  show V c main_arg0 _ = V c main_arg0 _
  refine congrArg _ ?_
  funext a
  apply Fin.ext
  match a with
  | ⟨0, _⟩ => show win1_0.index t (0 : Fin 2) * 200 + 1 * (x 0).val = (k 0).val; rw [h0, hk0]; omega
  | ⟨1, _⟩ => show win1_0.index t (1 : Fin 2) * 10000 + 1 * (x 1).val = (k 1).val; rw [h1, hk1]; omega

/-- The right operand's window holds the whole array at every point. -/
theorem iblk1_1_apply (c : Dev nD) (t : Fin cfg1.N) (x : S10000x128.Idx) (k : S10000x128.Idx)
    (hk0 : (k 0).val = (x 0).val) (hk1 : (k 1).val = (x 1).val) :
    (iblk1 V c 1 t : Vec Ideal S10000x128 .f32) x = (V c main_v0 : S10000x128.Idx → Elt Ideal .f32) k := by
  obtain ⟨-, -, h0, h1, -, -⟩ := idx1 t
  unfold iblk1
  rw [View.read_apply]
  show V c main_v0 _ = V c main_v0 _
  refine congrArg _ ?_
  funext a
  apply Fin.ext
  match a with
  | ⟨0, _⟩ => show win1_1.index t (0 : Fin 2) * 10000 + 1 * (x 0).val = (k 0).val; rw [h0, hk0]; omega
  | ⟨1, _⟩ => show win1_1.index t (1 : Fin 2) * 128 + 1 * (x 1).val = (k 1).val; rw [h1, hk1]; omega

/-- What point `t` writes back is block row `t` of `adj · B`, `B` the right operand as the region finds it. -/
theorem flushed1 (c : Dev nD) (t : Fin cfg1.N) :
    (dat1 V c).flushed 2 t
      = ((cfg1.win 2).blk t).view.read (Elt Ideal) (prod2 (V c main_arg0) (V c main_v0)) := by
  show (cfg1.win 2).cut (grid1.coords t) ((dat1 V c).after 2 t) = _
  rw [after1_2, out1_2_eq (iblk1 V c 0 t) (iblk1 V c 1 t)]
  obtain ⟨-, -, -, -, h0, h1⟩ := idx1 t
  have htN : t.val < 50 := by have := t.isLt; have e : cfg1.N = 50 := N_1; omega
  funext j
  obtain ⟨p, q, rfl⟩ : ∃ (p : Fin 200) (q : Fin 128), j = ix2 p q := ⟨j 0, j 1, eq_ix2 j⟩
  rw [View.read_apply]
  have he : ((cfg1.win 2).blk t).view.emb (ix2 p q)
      = ix2 (⟨200 * t.val + p.val, by have := p.isLt; omega⟩ : Fin 10000) q := by
    funext a
    apply Fin.ext
    match a with
    | ⟨0, _⟩ => show win1_2.index t (0 : Fin 2) * 200 + 1 * p.val = 200 * t.val + p.val; rw [h0]; omega
    | ⟨1, _⟩ => show win1_2.index t (1 : Fin 2) * 128 + 1 * q.val = q.val; rw [h1]; omega
  rw [he]
  show prod2 (iblk1 V c 0 t : Vec Ideal S200x10000 .f32) (iblk1 V c 1 t : Vec Ideal S10000x128 .f32) (ix2 p q) = _
  refine prod2_congr_at _ _ _ _ p q _ q (fun k => ?_) (fun k => ?_)
  · exact iblk1_0_apply V c t (ix2 p k) (ix2 _ k) rfl rfl
  · exact iblk1_1_apply V c t (ix2 k q) (ix2 k q) rfl rfl

/-- An index of the result array is in point `t`'s block iff its row is among the block's 200 rows. -/
theorem mem_blk1 (t : Fin cfg1.N) (i : S10000x128.Idx) :
    i ∈ ((cfg1.win 2).blk t).view.set ↔ ∀ a : Fin 2, win1_2.index t a * S200x128.size a ≤ (i a).val
      ∧ (i a).val < win1_2.index t a * S200x128.size a + S200x128.size a := by
  show i ∈ ((View.whole main_v1).slice (win1_2.rect t)).set ↔ _
  rw [View.set_slice_whole, Rect.mem_set_unit]
  exact Iff.rfl

/-- The fifty blocks of 200 rows cover the result array: row `r` is in the block of point `r / 200`. -/
theorem cover1 (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  obtain ⟨t, ht⟩ : ∃ t : Fin cfg1.N, t.val = (i 0).val / 200 :=
    ⟨⟨(i 0).val / 200, by rw [show cfg1.N = 50 from N_1]; omega⟩, rfl⟩
  obtain ⟨-, -, -, -, h0, h1⟩ := idx1 t
  refine ⟨t, flush1_2 t, (mem_blk1 t i).mpr fun a => ?_⟩
  match a with
  | ⟨0, _⟩ =>
    show win1_2.index t (0 : Fin 2) * 200 ≤ (i 0).val ∧ (i 0).val < win1_2.index t (0 : Fin 2) * 200 + 200
    rw [h0, ht]; omega
  | ⟨1, _⟩ =>
    show win1_2.index t (1 : Fin 2) * 128 ≤ (i 1).val ∧ (i 1).val < win1_2.index t (1 : Fin 2) * 128 + 128
    rw [h1]; omega

/-- After the region its result array is `adj · B`. -/
theorem final1 (c : Dev nD) :
    (dat1 V c).arrAt 2 cfg1.N = prod2 (V c main_arg0) (V c main_v0) :=
  (dat1 V c).arrAt_eq_of_cover 2 (prod2 (V c main_arg0) (V c main_v0)) (fun t _ => flushed1 V c t) cover1

end Cert.Gae

end
-- ==== Proof.KernelRegion2.lean ====
import proofs.«104270_g30897994727511_cont_9to1_1020_2_alg».proof.Proof.KernelBody

/-!
# The third region's result array, from the contents the region is entered with

The region's output blocks are fifty disjoint bands of 200 rows that fill its result array, and the band a grid point
writes back is that band of ONE product of whole arrays: the `adj` window moves with the point and holds the band of
rows of `adj` with the same number, the right operand's window does not move and holds its whole array, and entry
`(p, q)` of a product reads only row `p` of its left operand. So after the region the result array is `adj · B`, `B`
the right operand as the region found it.
-/

set_option maxRecDepth 16384

noncomputable section

namespace Cert.Gae

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The region: blocks of 200 rows of `adj` times the whole right operand -/

/-- The block indices over the grid: point `t` takes block row `t` of `adj`, the whole right operand, and writes block
    row `t` of the result. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The `adj` window's block at point `t` is rows `200 t … 200 t + 199` of the array. -/
theorem iblk2_0_apply (c : Dev nD) (t : Fin cfg2.N) (x : S200x10000.Idx) (k : S10000x10000.Idx)
    (hk0 : (k 0).val = 200 * t.val + (x 0).val) (hk1 : (k 1).val = (x 1).val) :
    (iblk2 V c 0 t : Vec Ideal S200x10000 .f32) x = (V c main_arg0 : S10000x10000.Idx → Elt Ideal .f32) k := by
  obtain ⟨h0, h1, -, -, -, -⟩ := idx2 t
  unfold iblk2
  rw [View.read_apply]
  show V c main_arg0 _ = V c main_arg0 _
  refine congrArg _ ?_
  funext a
  apply Fin.ext
  match a with
  | ⟨0, _⟩ => show win2_0.index t (0 : Fin 2) * 200 + 1 * (x 0).val = (k 0).val; rw [h0, hk0]; omega
  | ⟨1, _⟩ => show win2_0.index t (1 : Fin 2) * 10000 + 1 * (x 1).val = (k 1).val; rw [h1, hk1]; omega

/-- The right operand's window holds the whole array at every point. -/
theorem iblk2_1_apply (c : Dev nD) (t : Fin cfg2.N) (x : S10000x128.Idx) (k : S10000x128.Idx)
    (hk0 : (k 0).val = (x 0).val) (hk1 : (k 1).val = (x 1).val) :
    (iblk2 V c 1 t : Vec Ideal S10000x128 .f32) x = (V c main_v1 : S10000x128.Idx → Elt Ideal .f32) k := by
  obtain ⟨-, -, h0, h1, -, -⟩ := idx2 t
  unfold iblk2
  rw [View.read_apply]
  show V c main_v1 _ = V c main_v1 _
  refine congrArg _ ?_
  funext a
  apply Fin.ext
  match a with
  | ⟨0, _⟩ => show win2_1.index t (0 : Fin 2) * 10000 + 1 * (x 0).val = (k 0).val; rw [h0, hk0]; omega
  | ⟨1, _⟩ => show win2_1.index t (1 : Fin 2) * 128 + 1 * (x 1).val = (k 1).val; rw [h1, hk1]; omega

/-- What point `t` writes back is block row `t` of `adj · B`, `B` the right operand as the region finds it. -/
theorem flushed2 (c : Dev nD) (t : Fin cfg2.N) :
    (dat2 V c).flushed 2 t
      = ((cfg2.win 2).blk t).view.read (Elt Ideal) (prod2 (V c main_arg0) (V c main_v1)) := by
  show (cfg2.win 2).cut (grid2.coords t) ((dat2 V c).after 2 t) = _
  rw [after2_2, out2_2_eq (iblk2 V c 0 t) (iblk2 V c 1 t)]
  obtain ⟨-, -, -, -, h0, h1⟩ := idx2 t
  have htN : t.val < 50 := by have := t.isLt; have e : cfg2.N = 50 := N_2; omega
  funext j
  obtain ⟨p, q, rfl⟩ : ∃ (p : Fin 200) (q : Fin 128), j = ix2 p q := ⟨j 0, j 1, eq_ix2 j⟩
  rw [View.read_apply]
  have he : ((cfg2.win 2).blk t).view.emb (ix2 p q)
      = ix2 (⟨200 * t.val + p.val, by have := p.isLt; omega⟩ : Fin 10000) q := by
    funext a
    apply Fin.ext
    match a with
    | ⟨0, _⟩ => show win2_2.index t (0 : Fin 2) * 200 + 1 * p.val = 200 * t.val + p.val; rw [h0]; omega
    | ⟨1, _⟩ => show win2_2.index t (1 : Fin 2) * 128 + 1 * q.val = q.val; rw [h1]; omega
  rw [he]
  show prod2 (iblk2 V c 0 t : Vec Ideal S200x10000 .f32) (iblk2 V c 1 t : Vec Ideal S10000x128 .f32) (ix2 p q) = _
  refine prod2_congr_at _ _ _ _ p q _ q (fun k => ?_) (fun k => ?_)
  · exact iblk2_0_apply V c t (ix2 p k) (ix2 _ k) rfl rfl
  · exact iblk2_1_apply V c t (ix2 k q) (ix2 k q) rfl rfl

/-- An index of the result array is in point `t`'s block iff its row is among the block's 200 rows. -/
theorem mem_blk2 (t : Fin cfg2.N) (i : S10000x128.Idx) :
    i ∈ ((cfg2.win 2).blk t).view.set ↔ ∀ a : Fin 2, win2_2.index t a * S200x128.size a ≤ (i a).val
      ∧ (i a).val < win2_2.index t a * S200x128.size a + S200x128.size a := by
  show i ∈ ((View.whole main_v2).slice (win2_2.rect t)).set ↔ _
  rw [View.set_slice_whole, Rect.mem_set_unit]
  exact Iff.rfl

/-- The fifty blocks of 200 rows cover the result array: row `r` is in the block of point `r / 200`. -/
theorem cover2 (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ : ∃ t : Fin cfg2.N, t.val = (i 0).val / 200 :=
    ⟨⟨(i 0).val / 200, by rw [show cfg2.N = 50 from N_2]; omega⟩, rfl⟩
  obtain ⟨-, -, -, -, h0, h1⟩ := idx2 t
  refine ⟨t, flush2_2 t, (mem_blk2 t i).mpr fun a => ?_⟩
  match a with
  | ⟨0, _⟩ =>
    show win2_2.index t (0 : Fin 2) * 200 ≤ (i 0).val ∧ (i 0).val < win2_2.index t (0 : Fin 2) * 200 + 200
    rw [h0, ht]; omega
  | ⟨1, _⟩ =>
    show win2_2.index t (1 : Fin 2) * 128 ≤ (i 1).val ∧ (i 1).val < win2_2.index t (1 : Fin 2) * 128 + 128
    rw [h1]; omega

/-- After the region its result array is `adj · B`. -/
theorem final2 (c : Dev nD) :
    (dat2 V c).arrAt 2 cfg2.N = prod2 (V c main_arg0) (V c main_v1) :=
  (dat2 V c).arrAt_eq_of_cover 2 (prod2 (V c main_arg0) (V c main_v1)) (fun t _ => flushed2 V c t) cover2

end Cert.Gae

end
-- ==== Proof.KernelChain.lean ====
import proofs.«104270_g30897994727511_cont_9to1_1020_2_alg».proof.Proof.KernelRegion0
import proofs.«104270_g30897994727511_cont_9to1_1020_2_alg».proof.Proof.KernelRegion1
import proofs.«104270_g30897994727511_cont_9to1_1020_2_alg».proof.Proof.KernelRegion2

/-!
# The kernel program's result, from the launch memory

The three regions run one after the other. The first leaves `S = x · (W_enc · W_mean)` in its result array; the
second reads `adj` (still as launched: no region writes it) and `S` and leaves `T = adj · S`; the third reads `adj`
and `T` and leaves `adj · T`, the program's result.
-/

set_option maxRecDepth 16384

noncomputable section

namespace Cert.Gae

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- `S`, the first region's result, as a function of the launch memory. -/
abbrev arrS (c : Dev nD) : FVec Ideal S10000x128 .f32 :=
  prod2 (m ((c : Thread nD τ).loc main_arg1)) (prod2 (m ((c : Thread nD τ).loc main_arg2)) (m ((c : Thread nD τ).loc main_arg3)))

/-- `T = adj · S`, the second region's result. -/
abbrev arrT (c : Dev nD) : FVec Ideal S10000x128 .f32 := prod2 (m ((c : Thread nD τ).loc main_arg0)) (arrS m c)

/-- The program's result, `adj · T`. -/
abbrev arrOut (c : Dev nD) : FVec Ideal S10000x128 .f32 := prod2 (m ((c : Thread nD τ).loc main_arg0)) (arrT m c)

/-- After the first region its result array holds `S`. -/
theorem V1_v0 (c : Dev nD) : V1 m ρ c main_v0 = arrS m c :=
  (W1_arr m ρ c 3).trans (final0 (V0 m ρ) c)

/-- The first region does not touch `adj`. -/
theorem V1_arg0 (c : Dev nD) : V1 m ρ c main_arg0 = m ((c : Thread nD τ).loc main_arg0) :=
  W1_of_ne m ρ c main_arg0 (by decide)

/-- After the second region its result array holds `T`. -/
theorem V2_v1 (c : Dev nD) : V2 m ρ c main_v1 = arrT m c := by
  refine (W2_arr m ρ c 2).trans ((final1 (V1 m ρ) c).trans ?_)
  rw [V1_arg0 m ρ c, V1_v0 m ρ c]

/-- The second region reads `adj` and leaves it as it was. -/
theorem V2_arg0 (c : Dev nD) : V2 m ρ c main_arg0 = m ((c : Thread nD τ).loc main_arg0) :=
  ((W2_arr m ρ c 0).trans (((dat1 (V1 m ρ) c).arrAt_in 0 rfl _).trans (A_eq1 (V1 m ρ) c 0))).trans (V1_arg0 m ρ c)

/-- After the third region the program's result buffer holds `adj · (adj · (x · (W_enc · W_mean)))`. -/
theorem W3_v2 (c : Dev nD) : W3 m ρ c (Proc.devRef .tc main_v2) = arrOut m c := by
  refine (W3_arr m ρ c 2).trans ((final2 (V2 m ρ) c).trans ?_)
  rw [V2_arg0 m ρ c, V2_v1 m ρ c]

end Cert.Gae

end
-- ==== Proof.RefValue.lean ====
import proofs.«104270_g30897994727511_cont_9to1_1020_2_alg».proof.Proof.Gen.ReferenceIdeal.Run
import proofs.«104270_g30897994727511_cont_9to1_1020_2_alg».proof.Proof.ProdOps

/-!
# The reference's result as products of arrays

The reference is four host dot products, each over the plain contraction: `adj · ((adj · (x · W_enc)) · W_mean)`.
-/

noncomputable section

namespace Cert.Gae

open Idealize.ShloMosaic Idealize.ShloMosaic.ValueIdx Cert.ReferenceIdeal Cert.ReferenceIdeal.Gen

/-- The term the reference's run states for its result is `adj · ((adj · (x · W_enc)) · W_mean)`. -/
theorem ref_eq (x0 : FVec Ideal S10000x10000 .f32) (x1 : FVec Ideal S10000x128 .f32) (x2 x3 : FVec Ideal S128x128 .f32) :
    Host.dotGeneral dot_S10000x10000_S10000x128_S10000x128_1_0_0_1_n_n none x0
        (Host.dotGeneral dot_S10000x128_S128x128_S10000x128_1_0_0_1_n_n none
          (Host.dotGeneral dot_S10000x10000_S10000x128_S10000x128_1_0_0_1_n_n none x0
            (Host.dotGeneral dot_S10000x128_S128x128_S10000x128_1_0_0_1_n_n none x1 x2)) x3)
      = prod2 x0 (prod2 (prod2 x0 (prod2 x1 x2)) x3) := by
  rw [dotGeneral_eq_prod2 dot_S10000x128_S128x128_S10000x128_1_0_0_1_n_n rfl x1 x2,
    dotGeneral_eq_prod2 dot_S10000x10000_S10000x128_S10000x128_1_0_0_1_n_n rfl x0 (prod2 x1 x2),
    dotGeneral_eq_prod2 dot_S10000x128_S128x128_S10000x128_1_0_0_1_n_n rfl (prod2 x0 (prod2 x1 x2)) x3,
    dotGeneral_eq_prod2 dot_S10000x10000_S10000x128_S10000x128_1_0_0_1_n_n rfl x0 (prod2 (prod2 x0 (prod2 x1 x2)) x3)]

end Cert.Gae

end
-- ==== Proof.Finite.lean ====
import Idealize.ShloMosaic.Lib.ReduceAll
import Idealize.ShloMosaic.Lib.ValueIdx
import Idealize.ShloMosaic.PureOps.Ideal
import proofs.«104270_g30897994727511_cont_9to1_1020_2_alg».proof.Proof.Gen.Pre_finite_inputs
import proofs.«104270_g30897994727511_cont_9to1_1020_2_alg».proof.Proof.MatLaw

/-!
# From the finiteness precondition to arrays of reals

The precondition says, of each of the four inputs, that every entry `x` satisfies `|x| < +∞`, and joins the four
statements by `and`. On the extended reals `|x| = max x (-x)`, and `max x (-x) < ⊤` excludes both `x = ⊤` and
`x = ⊥` (where `-x = ⊤`), so `x` is a real number. Hence every entry of every input is a real.
-/

noncomputable section

namespace Cert.Gae

open Idealize.ShloMosaic Idealize.ShloMosaic.ValueIdx
open Cert.Pre_finite_inputs (S_)

/-- The shape of a scalar has exactly one index. -/
instance : Subsingleton S_.Idx := ⟨fun a b => funext fun d => d.elim0⟩

/-- The pattern `0x7F800000` of the 32-bit format denotes `+∞`. -/
theorem inf_bits : Ideal.ofBits .f32 0x7F800000#32 = (⊤ : EReal) := by
  simp [Ideal.ofBits, Ideal.ieee]

/-- An extended real whose absolute value `max x (-x)` compares strictly below `+∞` is a real number. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- If the conjunction over all indices of `|a i| < +∞` holds, every entry of `a` is a real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ix0 = 1#1) : AllReal a :=
  fun i => real_of_abs_lt_inf (a i) (Host.reduce_andi_all _ _ hr hu ix0 e i)

/-- The precondition, all ones, makes each of the four inputs an array of reals: its four conjuncts, one per input. -/
theorem allReal_of_pre (a0 : FVec Ideal Cert.Pre_finite_inputs.S10000x10000 .f32) (a1 : FVec Ideal Cert.Pre_finite_inputs.S10000x128 .f32)
    (a2 a3 : FVec Ideal Cert.Pre_finite_inputs.S128x128 .f32)
    (h : Cert.Pre_finite_inputs.fn (F := Ideal) a0 a1 a2 a3 = fun _ => 1#1) :
    AllReal a0 ∧ AllReal a1 ∧ AllReal a2 ∧ AllReal a3 := by
  have h0 := congrFun h ix0
  dsimp only [Cert.Pre_finite_inputs.fn, Cert.Pre_finite_inputs.fn_part1, Idealize.ShloMosaic.andi] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_all a0 _ _ _ e0, allReal_of_all a1 _ _ _ e1, allReal_of_all a2 _ _ _ e2, allReal_of_all a3 _ _ _ e3⟩

end Cert.Gae

end
-- ==== Proof.lean ====
/-
  The two-layer graph convolution with identity activations, `adj · ((adj · (x · W_enc)) · W_mean)`, against a kernel
  program that first folds the two weight arrays into one right-hand side, `S = x · (W_enc · W_mean)` (five bands of
  2000 rows), and then applies `adj` twice, `T = adj · S` and `adj · T` (fifty bands of 200 rows each).
  At the ideal values every contraction, the kernels' into a zero accumulator and the host's, is the textbook product
  of arrays on the extended reals. There a product of arrays is associative only where the entries are real numbers
  (the extended reals do not distribute over sums that meet both infinities), which is what the precondition gives:
  every input entry is finite, so every intermediate entry is a real number, and
  `adj · (adj · (x · (W_enc · W_mean))) = adj · ((adj · (x · W_enc)) · W_mean)` by associativity twice.
  The frames of the two kernel programs are the generated ones; the reference's frame is its generated run with the
  result dropped; the ideal pass rewrote nothing, so `preserves` states nothing.
-/
import proofs.«104270_g30897994727511_cont_9to1_1020_2_alg».proof.Defs
import proofs.«104270_g30897994727511_cont_9to1_1020_2_alg».proof.Proof.Gen.Kernel
import proofs.«104270_g30897994727511_cont_9to1_1020_2_alg».proof.Proof.Gen.Kernel.Frame
import proofs.«104270_g30897994727511_cont_9to1_1020_2_alg».proof.Proof.Gen.KernelIdeal
import proofs.«104270_g30897994727511_cont_9to1_1020_2_alg».proof.Proof.Gen.KernelIdeal.Frame
import proofs.«104270_g30897994727511_cont_9to1_1020_2_alg».proof.Proof.Gen.ReferenceIdeal
import proofs.«104270_g30897994727511_cont_9to1_1020_2_alg».proof.Proof.Gen.Pre_finite_inputs
import proofs.«104270_g30897994727511_cont_9to1_1020_2_alg».proof.Proof.Gen.ReferenceIdeal.Run
import proofs.«104270_g30897994727511_cont_9to1_1020_2_alg».proof.Proof.RunNamed
import proofs.«104270_g30897994727511_cont_9to1_1020_2_alg».proof.Proof.KernelChain
import proofs.«104270_g30897994727511_cont_9to1_1020_2_alg».proof.Proof.RefValue
import proofs.«104270_g30897994727511_cont_9to1_1020_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends with `adj · (adj · (x · (W_enc · W_mean)))` in its result buffer, the reference with
    `adj · ((adj · (x · W_enc)) · W_mean)`; on finite inputs the two arrays are equal. -/
theorem algebraic : Cert.algebraic_KernelIdeal_ReferenceIdeal := by
  intro m ρ m' ρ' hpre hagree
  refine ⟨fun c => Cert.Gae.arrOut m c, ?_, ?_⟩
  · exact (θ_run Cert.KernelIdeal.defs _ _).mono (fun _ h c => ⟨(h c).1.trans (Cert.Gae.W3_v2 m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨hA, hX, h₁, h₂⟩ := Cert.Gae.allReal_of_pre _ _ _ _ (hpre c)
    rw [(hagree c).1, (hagree c).2.1, (hagree c).2.2.1, (hagree c).2.2.2, Cert.Gae.ref_eq]
    exact (Cert.Gae.two_layer _ _ _ _ hA hX h₁ h₂).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
